-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S8x4096 : Shape := ⟨2, ![8, 4096]⟩
abbrev S512 : Shape := ⟨1, ![512]⟩
abbrev S4096x8 : Shape := ⟨2, ![4096, 8]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S4x2048x4096 .f32) (main_arg1 : IVec S8x4096 32) (main_arg2 : FVec F S512 .f32) (main_arg3 : IVec S4096x8 32) (main_arg4 : FVec F S512 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S512 .f32 := Host.absf main_arg2
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S4x2048x4096 : Shape := ⟨3, ![4, 2048, 4096]⟩
abbrev S8x4096 : Shape := ⟨2, ![8, 4096]⟩
abbrev S512 : Shape := ⟨1, ![512]⟩
abbrev S4096x8 : Shape := ⟨2, ![4096, 8]⟩
abbrev S16 : Shape := ⟨1, ![16]⟩
abbrev S32768 : Shape := ⟨1, ![32768]⟩
abbrev S_ : Shape := ⟨0, ![]⟩
abbrev S32768x1 : Shape := ⟨2, ![32768, 1]⟩
abbrev S512x64 : Shape := ⟨2, ![512, 64]⟩
abbrev S512x1 : Shape := ⟨2, ![512, 1]⟩
abbrev S1x256x4096 : Shape := ⟨3, ![1, 256, 4096]⟩
abbrev S256x4096 : Shape := ⟨2, ![256, 4096]⟩
abbrev S256x8 : Shape := ⟨2, ![256, 8]⟩

abbrev nBuf : Space → Nat
  | .hbm => 41
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S8x4096, .i32⟩
  | .hbm, ⟨2, _⟩ => ⟨S512, .f32⟩
  | .hbm, ⟨3, _⟩ => ⟨S4096x8, .i32⟩
  | .hbm, ⟨4, _⟩ => ⟨S512, .f32⟩
  | .hbm, ⟨5, _⟩ => ⟨S16, .f32⟩
  | .hbm, ⟨6, _⟩ => ⟨S32768, .i32⟩
  | .hbm, ⟨7, _⟩ => ⟨S_, .i32⟩
  | .hbm, ⟨8, _⟩ => ⟨S32768, .i32⟩
  | .hbm, ⟨9, _⟩ => ⟨S32768, .i1⟩
  | .hbm, ⟨10, _⟩ => ⟨S_, .i32⟩
  | .hbm, ⟨11, _⟩ => ⟨S32768, .i32⟩
  | .hbm, ⟨12, _⟩ => ⟨S32768, .i32⟩
  | .hbm, ⟨13, _⟩ => ⟨S32768, .i32⟩
  | .hbm, ⟨14, _⟩ => ⟨S32768x1, .i32⟩
  | .hbm, ⟨15, _⟩ => ⟨S32768, .f32⟩
  | .hbm, ⟨16, _⟩ => ⟨S512x64, .f32⟩
  | .hbm, ⟨17, _⟩ => ⟨S512x1, .f32⟩
  | .hbm, ⟨18, _⟩ => ⟨S512x64, .f32⟩
  | .hbm, ⟨19, _⟩ => ⟨S512x64, .f32⟩
  | .hbm, ⟨20, _⟩ => ⟨S8x4096, .f32⟩
  | .hbm, ⟨21, _⟩ => ⟨S32768, .i32⟩
  | .hbm, ⟨22, _⟩ => ⟨S_, .i32⟩
  | .hbm, ⟨23, _⟩ => ⟨S32768, .i32⟩
  | .hbm, ⟨24, _⟩ => ⟨S32768, .i1⟩
  | .hbm, ⟨25, _⟩ => ⟨S_, .i32⟩
  | .hbm, ⟨26, _⟩ => ⟨S32768, .i32⟩
  | .hbm, ⟨27, _⟩ => ⟨S32768, .i32⟩
  | .hbm, ⟨28, _⟩ => ⟨S32768, .i32⟩
  | .hbm, ⟨29, _⟩ => ⟨S32768x1, .i32⟩
  | .hbm, ⟨30, _⟩ => ⟨S32768, .f32⟩
  | .hbm, ⟨31, _⟩ => ⟨S512x64, .f32⟩
  | .hbm, ⟨32, _⟩ => ⟨S512x1, .f32⟩
  | .hbm, ⟨33, _⟩ => ⟨S512x64, .f32⟩
  | .hbm, ⟨34, _⟩ => ⟨S512x64, .f32⟩
  | .hbm, ⟨35, _⟩ => ⟨S4096x8, .f32⟩
  | .hbm, ⟨36, _⟩ => ⟨S4096x8, .f32⟩
  | .hbm, ⟨37, _⟩ => ⟨S4096x8, .bf16⟩
  | .hbm, ⟨38, _⟩ => ⟨S8x4096, .f32⟩
  | .hbm, ⟨39, _⟩ => ⟨S8x4096, .bf16⟩
  | .hbm, ⟨40, _⟩ => ⟨S4x2048x4096, .f32⟩
  | .local _ .vmem, ⟨0, _⟩ => ⟨S1x256x4096, .f32⟩
  | .local _ .vmem, ⟨1, _⟩ => ⟨S1x256x4096, .f32⟩
  | .local _ .vmem, ⟨2, _⟩ => ⟨S4096x8, .bf16⟩
  | .local _ .vmem, ⟨3, _⟩ => ⟨S8x4096, .bf16⟩
  | .local _ .vmem, ⟨4, _⟩ => ⟨S1x256x4096, .f32⟩
  | .local _ .vmem, ⟨5, _⟩ => ⟨S1x256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x8 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8x4096_S32768 : S8x4096.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  shapeCasts_S32768_S512x64 : S32768.ShapeCasts S512x64
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  shapeCasts_S512x64_S8x4096 : S512x64.ShapeCasts S8x4096
  shapeCasts_S4096x8_S32768 : S4096x8.ShapeCasts S32768
  shapeCasts_S512x64_S4096x8 : S512x64.ShapeCasts S4096x8
  transposes_S8x4096_S4096x8_1_0 : S8x4096.Transposes [1, 0] S4096x8
  bitsLt_bf16_f32 : FTy.bits .bf16 < FTy.bits .f32
  transposes_S4096x8_S8x4096_1_0 : S4096x8.Transposes [1, 0] S8x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  inb_S4096x8_S4096x8_0_0 : ∀ a, (![0, 0] : Fin 2 → Nat) a + S4096x8.size a ≤ S4096x8.size a
  h_S4096x8 : 0 < S4096x8.numel
  shapeCasts_S4096x8_S4096x8 : S4096x8.ShapeCasts S4096x8
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  shapeCasts_S256x4096_S1x256x4096 : S256x4096.ShapeCasts S1x256x4096
  gather_S16_S32768x1_S32768_n_0_n_n_0_1_1_wf : GatherDims.WF S16 S32768x1 S32768 [] [0] [] [0] [] 1 ![1]
  dot_S256x4096_S4096x8_S256x8_1_0_0_1_n_n_wf : DotDims.WF S256x4096 S4096x8 S256x8 [1] [0] [0] [1] [] []
  dot_S256x8_S8x4096_S256x4096_1_0_0_1_n_n_wf : DotDims.WF S256x8 S8x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S4x2048x4096.size a
  hwx0_0 : ∀ i : grid0.Coords, EltTy.bits .f32 = 32 ∨ (Rect.block (s := S4x2048x4096) S1x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x8.size a ≤ S4096x8.size a
  hwx0_1 : ∀ i : grid0.Coords, EltTy.bits .bf16 = 32 ∨ (Rect.block (s := S4096x8) S4096x8.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S8x4096.size a
  hwx0_2 : ∀ i : grid0.Coords, EltTy.bits .bf16 = 32 ∨ (Rect.block (s := S8x4096) S8x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x4096.size a ≤ S4x2048x4096.size a
  hwx0_3 : ∀ i : grid0.Coords, EltTy.bits .f32 = 32 ∨ (Rect.block (s := S4x2048x4096) S1x256x4096.size (cc0_transform_3 i) (hinb0_3 i)).WholeWords (EltTy.packing .f32)

variable [Facts₀]

def gather_S16_S32768x1_S32768_n_0_n_n_0_1_1 : GatherDims S16 S32768x1 S32768 where
  offsetDims := []
  collapsedSliceDims := [0]
  operandBatchingDims := []
  startIndicesBatchingDims := []
  startIndexMap := [0]
  indexVectorDim := 1
  sliceSizes := ![1]
  wf := gather_S16_S32768x1_S32768_n_0_n_n_0_1_1_wf
def dot_S256x4096_S4096x8_S256x8_1_0_0_1_n_n : DotDims S256x4096 S4096x8 S256x8 where
  lhsContracting := [1]
  rhsContracting := [0]
  lhsNonContracting := [0]
  rhsNonContracting := [1]
  lhsBatch := []
  rhsBatch := []
  wf := dot_S256x4096_S4096x8_S256x8_1_0_0_1_n_n_wf
def dot_S256x8_S8x4096_S256x4096_1_0_0_1_n_n : DotDims S256x8 S8x4096 S256x4096 where
  lhsContracting := [1]
  rhsContracting := [0]
  lhsNonContracting := [0]
  rhsNonContracting := [1]
  lhsBatch := []
  rhsBatch := []
  wf := dot_S256x8_S8x4096_S256x4096_1_0_0_1_n_n_wf

abbrev win0_0 : Pipeline.Window sig grid0 :=
  Pipeline.Window.ofSpec (Memref.whole main_arg0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S4096x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S8x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1x256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S8x4096 : Shape := ⟨2, ![8, 4096]⟩
abbrev S512 : Shape := ⟨1, ![512]⟩
abbrev S4096x8 : Shape := ⟨2, ![4096, 8]⟩
abbrev S16 : Shape := ⟨1, ![16]⟩
abbrev S32768 : Shape := ⟨1, ![32768]⟩
abbrev S_ : Shape := ⟨0, ![]⟩
abbrev S32768x1 : Shape := ⟨2, ![32768, 1]⟩
abbrev S512x64 : Shape := ⟨2, ![512, 64]⟩
abbrev S512x1 : Shape := ⟨2, ![512, 1]⟩
abbrev S4x2048x8 : Shape := ⟨3, ![4, 2048, 8]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8x4096, .i32⟩
  | .hbm, ⟨2, _⟩ => ⟨S512, .f32⟩
  | .hbm, ⟨3, _⟩ => ⟨S4096x8, .i32⟩
  | .hbm, ⟨4, _⟩ => ⟨S512, .f32⟩
  | .hbm, ⟨5, _⟩ => ⟨S16, .f32⟩
  | .hbm, ⟨6, _⟩ => ⟨S32768, .i32⟩
  | .hbm, ⟨7, _⟩ => ⟨S_, .i32⟩
  | .hbm, ⟨8, _⟩ => ⟨S32768, .i32⟩
  | .hbm, ⟨9, _⟩ => ⟨S32768, .i1⟩
  | .hbm, ⟨10, _⟩ => ⟨S_, .i32⟩
  | .hbm, ⟨11, _⟩ => ⟨S32768, .i32⟩
  | .hbm, ⟨12, _⟩ => ⟨S32768, .i32⟩
  | .hbm, ⟨13, _⟩ => ⟨S32768, .i32⟩
  | .hbm, ⟨14, _⟩ => ⟨S32768x1, .i32⟩
  | .hbm, ⟨15, _⟩ => ⟨S32768, .f32⟩
  | .hbm, ⟨16, _⟩ => ⟨S512x64, .f32⟩
  | .hbm, ⟨17, _⟩ => ⟨S512x1, .f32⟩
  | .hbm, ⟨18, _⟩ => ⟨S512x64, .f32⟩
  | .hbm, ⟨19, _⟩ => ⟨S512x64, .f32⟩
  | .hbm, ⟨20, _⟩ => ⟨S8x4096, .f32⟩
  | .hbm, ⟨21, _⟩ => ⟨S32768, .i32⟩
  | .hbm, ⟨22, _⟩ => ⟨S_, .i32⟩
  | .hbm, ⟨23, _⟩ => ⟨S32768, .i32⟩
  | .hbm, ⟨24, _⟩ => ⟨S32768, .i1⟩
  | .hbm, ⟨25, _⟩ => ⟨S_, .i32⟩
  | .hbm, ⟨26, _⟩ => ⟨S32768, .i32⟩
  | .hbm, ⟨27, _⟩ => ⟨S32768, .i32⟩
  | .hbm, ⟨28, _⟩ => ⟨S32768, .i32⟩
  | .hbm, ⟨29, _⟩ => ⟨S32768x1, .i32⟩
  | .hbm, ⟨30, _⟩ => ⟨S32768, .f32⟩
  | .hbm, ⟨31, _⟩ => ⟨S512x64, .f32⟩
  | .hbm, ⟨32, _⟩ => ⟨S512x1, .f32⟩
  | .hbm, ⟨33, _⟩ => ⟨S512x64, .f32⟩
  | .hbm, ⟨34, _⟩ => ⟨S512x64, .f32⟩
  | .hbm, ⟨35, _⟩ => ⟨S4096x8, .f32⟩
  | .hbm, ⟨36, _⟩ => ⟨S4x2048x8, .f32⟩
  | .hbm, ⟨37, _⟩ => ⟨S4x2048x4096, .f32⟩
  | .hbm, ⟨38, _⟩ => ⟨S_, .f32⟩
  | .hbm, ⟨39, _⟩ => ⟨S4x2048x4096, .f32⟩
  | .hbm, ⟨40, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  shapeCasts_S8x4096_S32768 : S8x4096.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  shapeCasts_S32768_S512x64 : S32768.ShapeCasts S512x64
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  shapeCasts_S512x64_S8x4096 : S512x64.ShapeCasts S8x4096
  shapeCasts_S4096x8_S32768 : S4096x8.ShapeCasts S32768
  shapeCasts_S512x64_S4096x8 : S512x64.ShapeCasts S4096x8
  bcast_S_S4x2048x4096 : S_.BroadcastsInDim S4x2048x4096 (![] : Fin 0 → Fin S4x2048x4096.rank)
  gather_S16_S32768x1_S32768_n_0_n_n_0_1_1_wf : GatherDims.WF S16 S32768x1 S32768 [] [0] [] [0] [] 1 ![1]
  dot_S4x2048x4096_S8x4096_S4x2048x8_2_1_01_0_n_n_wf : DotDims.WF S4x2048x4096 S8x4096 S4x2048x8 [2] [1] [0, 1] [0] [] []
  dot_S4x2048x8_S4096x8_S4x2048x4096_2_1_01_0_n_n_wf : DotDims.WF S4x2048x8 S4096x8 S4x2048x4096 [2] [1] [0, 1] [0] [] []

variable [Facts₀]

def gather_S16_S32768x1_S32768_n_0_n_n_0_1_1 : GatherDims S16 S32768x1 S32768 where
  offsetDims := []
  collapsedSliceDims := [0]
  operandBatchingDims := []
  startIndicesBatchingDims := []
  startIndexMap := [0]
  indexVectorDim := 1
  sliceSizes := ![1]
  wf := gather_S16_S32768x1_S32768_n_0_n_n_0_1_1_wf
def dot_S4x2048x4096_S8x4096_S4x2048x8_2_1_01_0_n_n : DotDims S4x2048x4096 S8x4096 S4x2048x8 where
  lhsContracting := [2]
  rhsContracting := [1]
  lhsNonContracting := [0, 1]
  rhsNonContracting := [0]
  lhsBatch := []
  rhsBatch := []
  wf := dot_S4x2048x4096_S8x4096_S4x2048x8_2_1_01_0_n_n_wf
def dot_S4x2048x8_S4096x8_S4x2048x4096_2_1_01_0_n_n : DotDims S4x2048x8 S4096x8 S4x2048x4096 where
  lhsContracting := [2]
  rhsContracting := [1]
  lhsNonContracting := [0, 1]
  rhsNonContracting := [0]
  lhsBatch := []
  rhsBatch := []
  wf := dot_S4x2048x8_S4096x8_S4x2048x4096_2_1_01_0_n_n_wf

class Facts : Prop extends Facts₀ where

variable [Facts]
-- ==== Proof.RefRun.lean ====
/-
  The reference program's run, read back as a value.

  The reference's @main is a straight line of 36 host operations.  Its first thirty-two dequantize the two
  weight matrices: a 4-bit code `q` (an index into the sixteen-entry codebook; a negative one is moved up by 16,
  as an array index wraps) is looked up, and each run of 64 consecutive looked-up values, in row-major order, is
  multiplied by that run's scale `absmax`.  The last four contract `x[b,s,·]` against the rows of `W_A`, contract
  the result against the rows of `W_B`, and multiply by 4.  Every weakly fair execution of that line terminates
  with the result buffer at the composed term `refOut` of the five arguments, and the arguments unchanged.
-/
import proofs.«163478_j20564303413746_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The dequantization, as functions of the codes and the scales -/

/-- The sixteen-entry codebook. -/
abbrev codebook : FVec F S16 .f32 := fun i => FloatOps.ofBits .f32 (lit0 (S16.rowMajor i))

/-- A flat run of codes read as indices: a negative code is moved up by 16. -/
abbrev wrapIdx (q : IVec S32768 32) : IVec S32768 32 :=
  select (cmpi .slt q (broadcastInDim S32768 ![] bcast_S_S32768 (constantI S_ 32 0#32)))
    (addi q (broadcastInDim S32768 ![] bcast_S_S32768 (constantI S_ 32 16#32))) q

/-- The 32768 looked-up values in 512 runs of 64, each run times its scale. -/
abbrev dequant (q : IVec S32768 32) (absmax : FVec F S512 .f32) : FVec F S512x64 .f32 :=
  mulf
    (shapeCast S512x64
      (Host.gather gather_S16_S32768x1_S32768_n_0_n_n_0_1_1 (codebook (F := F))
        (broadcastInDim S32768x1 ![0] bcast_S32768_S32768x1_0 (wrapIdx q)))
      shapeCasts_S32768_S512x64)
    (broadcastInDim S512x64 ![0, 1] bcast_S512x1_S512x64_0_1 (broadcastInDim S512x1 ![0] bcast_S512_S512x1_0 absmax))

/-- `W_A`, 8 × 4096. -/
abbrev weightA (qA : IVec S8x4096 32) (sA : FVec F S512 .f32) : FVec F S8x4096 .f32 :=
  shapeCast S8x4096 (dequant (shapeCast S32768 qA shapeCasts_S8x4096_S32768) sA) shapeCasts_S512x64_S8x4096

/-- `W_B`, 4096 × 8. -/
abbrev weightB (qB : IVec S4096x8 32) (sB : FVec F S512 .f32) : FVec F S4096x8 .f32 :=
  shapeCast S4096x8 (dequant (shapeCast S32768 qB shapeCasts_S4096x8_S32768) sB) shapeCasts_S512x64_S4096x8

/-- The reference's result from `x` and the two weight matrices: two contractions, then the factor 4. -/
abbrev refOf (x : FVec F S4x2048x4096 .f32) (wA : FVec F S8x4096 .f32) (wB : FVec F S4096x8 .f32) : FVec F S4x2048x4096 .f32 :=
  mulf
    (Host.dotGeneral dot_S4x2048x8_S4096x8_S4x2048x4096_2_1_01_0_n_n none
      (Host.dotGeneral dot_S4x2048x4096_S8x4096_S4x2048x8_2_1_01_0_n_n none x wA) wB)
    (broadcastInDim S4x2048x4096 ![] bcast_S_S4x2048x4096 (constant S_ .f32 0x40800000#32))

/-! ## @main as a list of operations, and its run -/

/-- @main's 36 operations, in order. -/
abbrev ops : List (HloOp τ sig (Elt F)) :=
  [ nullary main_cst (fun i => FloatOps.ofBits .f32 (lit0 (S16.rowMajor i))),
    reshape main_arg1 main_v0 rfl shapeCasts_S8x4096_S32768,
    nullary main_c (constantI S_ 32 0#32),
    unary main_c main_v1 (broadcastInDim S32768 ![] bcast_S_S32768 : (⟨S_, .i32⟩ : BufTy).Contents (Elt F) → (⟨S32768, .i32⟩ : BufTy).Contents (Elt F)),
    binary main_v0 main_v1 main_v2 (cmpi .slt : (⟨S32768, .i32⟩ : BufTy).Contents (Elt F) → (⟨S32768, .i32⟩ : BufTy).Contents (Elt F) → (⟨S32768, .i1⟩ : BufTy).Contents (Elt F)),
    nullary main_c_0 (constantI S_ 32 16#32),
    unary main_c_0 main_v3 (broadcastInDim S32768 ![] bcast_S_S32768 : (⟨S_, .i32⟩ : BufTy).Contents (Elt F) → (⟨S32768, .i32⟩ : BufTy).Contents (Elt F)),
    binary main_v0 main_v3 main_v4 (addi : (⟨S32768, .i32⟩ : BufTy).Contents (Elt F) → (⟨S32768, .i32⟩ : BufTy).Contents (Elt F) → (⟨S32768, .i32⟩ : BufTy).Contents (Elt F)),
    ternary main_v2 main_v4 main_v0 main_v5 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v5 main_v6 (broadcastInDim S32768x1 ![0] bcast_S32768_S32768x1_0 : (⟨S32768, .i32⟩ : BufTy).Contents (Elt F) → (⟨S32768x1, .i32⟩ : BufTy).Contents (Elt F)),
    binary main_cst main_v6 main_v7 ((fun x i => Host.gather gather_S16_S32768x1_S32768_n_0_n_n_0_1_1 x i) : (⟨S16, .f32⟩ : BufTy).Contents (Elt F) → (⟨S32768x1, .i32⟩ : BufTy).Contents (Elt F) → (⟨S32768, .f32⟩ : BufTy).Contents (Elt F)),
    reshape main_v7 main_v8 rfl shapeCasts_S32768_S512x64,
    unary main_arg2 main_v9 (broadcastInDim S512x1 ![0] bcast_S512_S512x1_0 : (⟨S512, .f32⟩ : BufTy).Contents (Elt F) → (⟨S512x1, .f32⟩ : BufTy).Contents (Elt F)),
    unary main_v9 main_v10 (broadcastInDim S512x64 ![0, 1] bcast_S512x1_S512x64_0_1 : (⟨S512x1, .f32⟩ : BufTy).Contents (Elt F) → (⟨S512x64, .f32⟩ : BufTy).Contents (Elt F)),
    binary main_v8 main_v10 main_v11 (mulf : (⟨S512x64, .f32⟩ : BufTy).Contents (Elt F) → (⟨S512x64, .f32⟩ : BufTy).Contents (Elt F) → (⟨S512x64, .f32⟩ : BufTy).Contents (Elt F)),
    reshape main_v11 main_v12 rfl shapeCasts_S512x64_S8x4096,
    reshape main_arg3 main_v13 rfl shapeCasts_S4096x8_S32768,
    nullary main_c_1 (constantI S_ 32 0#32),
    unary main_c_1 main_v14 (broadcastInDim S32768 ![] bcast_S_S32768 : (⟨S_, .i32⟩ : BufTy).Contents (Elt F) → (⟨S32768, .i32⟩ : BufTy).Contents (Elt F)),
    binary main_v13 main_v14 main_v15 (cmpi .slt : (⟨S32768, .i32⟩ : BufTy).Contents (Elt F) → (⟨S32768, .i32⟩ : BufTy).Contents (Elt F) → (⟨S32768, .i1⟩ : BufTy).Contents (Elt F)),
    nullary main_c_2 (constantI S_ 32 16#32),
    unary main_c_2 main_v16 (broadcastInDim S32768 ![] bcast_S_S32768 : (⟨S_, .i32⟩ : BufTy).Contents (Elt F) → (⟨S32768, .i32⟩ : BufTy).Contents (Elt F)),
    binary main_v13 main_v16 main_v17 (addi : (⟨S32768, .i32⟩ : BufTy).Contents (Elt F) → (⟨S32768, .i32⟩ : BufTy).Contents (Elt F) → (⟨S32768, .i32⟩ : BufTy).Contents (Elt F)),
    ternary main_v15 main_v17 main_v13 main_v18 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v18 main_v19 (broadcastInDim S32768x1 ![0] bcast_S32768_S32768x1_0 : (⟨S32768, .i32⟩ : BufTy).Contents (Elt F) → (⟨S32768x1, .i32⟩ : BufTy).Contents (Elt F)),
    binary main_cst main_v19 main_v20 ((fun x i => Host.gather gather_S16_S32768x1_S32768_n_0_n_n_0_1_1 x i) : (⟨S16, .f32⟩ : BufTy).Contents (Elt F) → (⟨S32768x1, .i32⟩ : BufTy).Contents (Elt F) → (⟨S32768, .f32⟩ : BufTy).Contents (Elt F)),
    reshape main_v20 main_v21 rfl shapeCasts_S32768_S512x64,
    unary main_arg4 main_v22 (broadcastInDim S512x1 ![0] bcast_S512_S512x1_0 : (⟨S512, .f32⟩ : BufTy).Contents (Elt F) → (⟨S512x1, .f32⟩ : BufTy).Contents (Elt F)),
    unary main_v22 main_v23 (broadcastInDim S512x64 ![0, 1] bcast_S512x1_S512x64_0_1 : (⟨S512x1, .f32⟩ : BufTy).Contents (Elt F) → (⟨S512x64, .f32⟩ : BufTy).Contents (Elt F)),
    binary main_v21 main_v23 main_v24 (mulf : (⟨S512x64, .f32⟩ : BufTy).Contents (Elt F) → (⟨S512x64, .f32⟩ : BufTy).Contents (Elt F) → (⟨S512x64, .f32⟩ : BufTy).Contents (Elt F)),
    reshape main_v24 main_v25 rfl shapeCasts_S512x64_S4096x8,
    binary main_arg0 main_v12 main_v26 ((fun l r => Host.dotGeneral dot_S4x2048x4096_S8x4096_S4x2048x8_2_1_01_0_n_n none l r) : (⟨S4x2048x4096, .f32⟩ : BufTy).Contents (Elt F) → (⟨S8x4096, .f32⟩ : BufTy).Contents (Elt F) → (⟨S4x2048x8, .f32⟩ : BufTy).Contents (Elt F)),
    binary main_v26 main_v25 main_v27 ((fun l r => Host.dotGeneral dot_S4x2048x8_S4096x8_S4x2048x4096_2_1_01_0_n_n none l r) : (⟨S4x2048x8, .f32⟩ : BufTy).Contents (Elt F) → (⟨S4096x8, .f32⟩ : BufTy).Contents (Elt F) → (⟨S4x2048x4096, .f32⟩ : BufTy).Contents (Elt F)),
    nullary main_cst_3 (constant S_ .f32 0x40800000#32),
    unary main_cst_3 main_v28 (broadcastInDim S4x2048x4096 ![] bcast_S_S4x2048x4096 : (⟨S_, .f32⟩ : BufTy).Contents (Elt F) → (⟨S4x2048x4096, .f32⟩ : BufTy).Contents (Elt F)),
    binary main_v27 main_v28 main_v29 (mulf : (⟨S4x2048x4096, .f32⟩ : BufTy).Contents (Elt F) → (⟨S4x2048x4096, .f32⟩ : BufTy).Contents (Elt F) → (⟨S4x2048x4096, .f32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., reshape_bufs_sub .., nullary_bufs_sub .., unary_bufs_sub .., binary_bufs_sub .., nullary_bufs_sub .., unary_bufs_sub .., binary_bufs_sub .., ternary_bufs_sub .., unary_bufs_sub .., binary_bufs_sub .., reshape_bufs_sub .., unary_bufs_sub .., unary_bufs_sub .., binary_bufs_sub .., reshape_bufs_sub .., reshape_bufs_sub .., nullary_bufs_sub .., unary_bufs_sub .., binary_bufs_sub .., nullary_bufs_sub .., unary_bufs_sub .., binary_bufs_sub .., ternary_bufs_sub .., unary_bufs_sub .., binary_bufs_sub .., reshape_bufs_sub .., unary_bufs_sub .., unary_bufs_sub .., binary_bufs_sub .., reshape_bufs_sub .., binary_bufs_sub .., binary_bufs_sub .., nullary_bufs_sub .., unary_bufs_sub .., binary_bufs_sub ..⟩

set_option maxRecDepth 8192 in
set_option maxHeartbeats 4000000 in
/-- From any memory with zero counters every weakly fair execution of @main terminates; the result buffer then holds
    `refOf` of `x` and the two dequantized weight matrices, and the five arguments are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29)
          = refOf (m ((c.tc : Thread nD τ).loc main_arg0))
              (weightA (m ((c.tc : Thread nD τ).loc main_arg1)) (m ((c.tc : Thread nD τ).loc main_arg2)))
              (weightB (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v29).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.ReferenceIdeal.RefRun

end
-- ==== Proof.LibRowContraction.lean ====
/-
  A product contracted over the LAST axis of both operands, read at an entry.  For a `B × S × K` array `l` and an
  `N × K` matrix `r`, the dimension numbers "contract axis 2 of the left with axis 1 of the right, no batch axis"
  give the `B × S × N` array whose entry `(b, s, o)` is, at the extended reals, the sum over `k : Fin K` of
  `l (b, s, k) * r (o, k)`: each row `l (b, s, ·)` against each row `r (o, ·)`.  Nothing here names a program.
-/
import Idealize.ShloMosaic.PureOps.Ideal.Laws
import Idealize.ShloMosaic.Lib.ValueIdx

namespace Cert.RowContraction

open Idealize.ShloMosaic Idealize.ShloMosaic.ValueIdx

/-- Those dimension numbers; their well-formedness `wf` is decided on a program's literal shapes. -/
abbrev dims (B S K N : ℕ)
    (wf : DotDims.WF ⟨3, ![B, S, K]⟩ ⟨2, ![N, K]⟩ ⟨3, ![B, S, N]⟩ [2] [1] [0, 1] [0] [] []) :
    DotDims ⟨3, ![B, S, K]⟩ ⟨2, ![N, K]⟩ ⟨3, ![B, S, N]⟩ where
  lhsContracting := [2]
  rhsContracting := [1]
  lhsNonContracting := [0, 1]
  rhsNonContracting := [0]
  lhsBatch := []
  rhsBatch := []
  wf := wf

variable {B S K N : ℕ} (wf : DotDims.WF ⟨3, ![B, S, K]⟩ ⟨2, ![N, K]⟩ ⟨3, ![B, S, N]⟩ [2] [1] [0, 1] [0] [] [])

/-- The left operand's index at output `(b, s, o)` and contraction coordinate `k` is `(b, s, k)`. -/
theorem lhsIdx_dims (b : Fin B) (s : Fin S) (o : Fin N) (k : Fin K) :
    (dims B S K N wf).lhsIdx (ix3 b s o) ((contrEquiv1 (dims B S K N wf) K rfl rfl).symm k) = ix3 b s k := by
  have hk := contrEquiv1_symm_val (dims B S K N wf) K rfl rfl k
  funext a
  apply Fin.ext
  match a with
  | ⟨0, _⟩ => rfl
  | ⟨1, _⟩ => rfl
  | ⟨2, _⟩ => exact ((dims B S K N wf).lhsIdx_val_of_single rfl (ix3 b s o) _).trans hk

/-- The right operand's index there is `(o, k)`. -/
theorem rhsIdx_dims (b : Fin B) (s : Fin S) (o : Fin N) (k : Fin K) :
    (dims B S K N wf).rhsIdx (ix3 b s o) ((contrEquiv1 (dims B S K N wf) K rfl rfl).symm k) = ix2 o k := by
  have hk := contrEquiv1_symm_val (dims B S K N wf) K rfl rfl k
  funext a
  apply Fin.ext
  match a with
  | ⟨0, _⟩ => rfl
  | ⟨1, _⟩ => exact ((dims B S K N wf).rhsIdx_val_of_single rfl (ix3 b s o) _).trans hk

/-- The host's `dot_general` with these dimension numbers, at entry `(b, s, o)`, is `∑ k, l (b, s, k) * r (o, k)` on the
    extended reals. -/
theorem dotGeneral_rows_apply {φ₁ φ₂ : FTy} (l : FVec Ideal ⟨3, ![B, S, K]⟩ φ₁) (r : FVec Ideal ⟨2, ![N, K]⟩ φ₂)
    (prec : Option ContractPrecision) (b : Fin B) (s : Fin S) (o : Fin N) :
    Host.dotGeneral (dims B S K N wf) prec l r (ix3 b s o) = ∑ k : Fin K, l (ix3 b s k) * r (ix2 o k) := by
  show FloatOps.dotGeneral (dims B S K N wf) prec _ l r (ix3 b s o) = _
  rw [Ideal.dotGeneral_apply, ← Equiv.sum_comp (contrEquiv1 (dims B S K N wf) K rfl rfl).symm]
  refine Finset.sum_congr rfl fun k _ => ?_
  rw [lhsIdx_dims, rhsIdx_dims]

end Cert.RowContraction
-- ==== Proof.Spec.lean ====
/-
  The low-rank update, as one function of `x` and the two weight matrices.

  With `x` of shape 4 × 2048 × 4096, `W_A` of shape 8 × 4096 and `W_B` of shape 4096 × 8, entry `(b, s, o)` of the
  result is

      ( ∑ r < 8, ( ∑ i < 4096, x[b, s, i] · W_A[r, i] ) · W_B[o, r] ) · 4

  on the extended reals: the row `x[b, s, ·]` is taken against the eight rows of `W_A`, the eight numbers so obtained
  against row `o` of `W_B`, and the result is scaled by 4 (the word `0x40800000`, kept as a word: the same word stands
  on both sides and is never evaluated).  Both programs compute exactly this, each with its own tiling and its own
  layout of the weights, so no law of arithmetic is needed beyond reading each product as this sum.
-/
import Idealize.ShloMosaic.PureOps.Ideal
import Idealize.ShloMosaic.Lib.ValueIdx

noncomputable section

namespace Cert.Lora

open Idealize.ShloMosaic Idealize.ShloMosaic.ValueIdx

/-- Entry `(b, s, o)` of the update. -/
def updateAt (x : FVec Ideal ⟨3, ![4, 2048, 4096]⟩ .f32) (wA : FVec Ideal ⟨2, ![8, 4096]⟩ .f32)
    (wB : FVec Ideal ⟨2, ![4096, 8]⟩ .f32) (b : Fin 4) (s : Fin 2048) (o : Fin 4096) : EReal :=
  (∑ r : Fin 8, (∑ i : Fin 4096, x (ix3 b s i) * wA (ix2 r i)) * wB (ix2 o r)) * Ideal.ofBits .f32 0x40800000#32

/-- The update as an array. -/
def update (x : FVec Ideal ⟨3, ![4, 2048, 4096]⟩ .f32) (wA : FVec Ideal ⟨2, ![8, 4096]⟩ .f32)
    (wB : FVec Ideal ⟨2, ![4096, 8]⟩ .f32) : FVec Ideal ⟨3, ![4, 2048, 4096]⟩ .f32 :=
  fun j => updateAt x wA wB (j 0) (j 1) (j 2)

theorem update_apply (x : FVec Ideal ⟨3, ![4, 2048, 4096]⟩ .f32) (wA : FVec Ideal ⟨2, ![8, 4096]⟩ .f32)
    (wB : FVec Ideal ⟨2, ![4096, 8]⟩ .f32) (b : Fin 4) (s : Fin 2048) (o : Fin 4096) :
    update x wA wB (ix3 b s o) = updateAt x wA wB b s o := rfl

end Cert.Lora

end
-- ==== Proof.RefValue.lean ====
/-
  The reference's result term is the low-rank update.

  The reference contracts `x[b, s, ·]` with each row of `W_A`, then the eight numbers so obtained with each row of
  `W_B`, and multiplies by the splat of 4.  Read at entry `(b, s, o)` on the extended reals, each contraction is the
  sum over its one contracted coordinate, and the product with the splat is the product with its word's value.
-/
import proofs.«163478_j20564303413746_1_alg».proof.Proof.RefRun
import proofs.«163478_j20564303413746_1_alg».proof.Proof.LibRowContraction
import proofs.«163478_j20564303413746_1_alg».proof.Proof.Spec

noncomputable section

namespace Cert.ReferenceIdeal.RefValue

open Cert.ReferenceIdeal Cert.ReferenceIdeal.Gen Idealize.ShloMosaic Idealize.ShloMosaic.ValueIdx

/-- The first contraction at `(b, s, r)`: row `x[b, s, ·]` against row `r` of `W_A`. -/
theorem down_apply (x : FVec Ideal S4x2048x4096 .f32) (wA : FVec Ideal S8x4096 .f32) (b : Fin 4) (s : Fin 2048) (r : Fin 8) :
    Host.dotGeneral dot_S4x2048x4096_S8x4096_S4x2048x8_2_1_01_0_n_n none x wA (ix3 b s r)
      = ∑ i : Fin 4096, x (ix3 b s i) * wA (ix2 r i) :=
  Cert.RowContraction.dotGeneral_rows_apply (B := 4) (S := 2048) (K := 4096) (N := 8)
    Facts₀.dot_S4x2048x4096_S8x4096_S4x2048x8_2_1_01_0_n_n_wf x wA none b s r

/-- The second contraction at `(b, s, o)`: the eight numbers `y[b, s, ·]` against row `o` of `W_B`. -/
theorem up_apply (y : FVec Ideal S4x2048x8 .f32) (wB : FVec Ideal S4096x8 .f32) (b : Fin 4) (s : Fin 2048) (o : Fin 4096) :
    Host.dotGeneral dot_S4x2048x8_S4096x8_S4x2048x4096_2_1_01_0_n_n none y wB (ix3 b s o)
      = ∑ r : Fin 8, y (ix3 b s r) * wB (ix2 o r) :=
  Cert.RowContraction.dotGeneral_rows_apply (B := 4) (S := 2048) (K := 8) (N := 4096)
    Facts₀.dot_S4x2048x8_S4096x8_S4x2048x4096_2_1_01_0_n_n_wf y wB none b s o

/-- The reference's term of `x`, `W_A`, `W_B` is the update, entry by entry. -/
theorem refOf_eq_update (x : FVec Ideal S4x2048x4096 .f32) (wA : FVec Ideal S8x4096 .f32) (wB : FVec Ideal S4096x8 .f32) :
    RefRun.refOf (F := Ideal) x wA wB = Cert.Lora.update x wA wB := by
  funext j
  obtain ⟨b, s, o, rfl⟩ : ∃ (b : Fin 4) (s : Fin 2048) (o : Fin 4096), j = ix3 b s o := ⟨j 0, j 1, j 2, eq_ix3 j⟩
  rw [Cert.Lora.update_apply]
  show Host.dotGeneral dot_S4x2048x8_S4096x8_S4x2048x4096_2_1_01_0_n_n none
        (Host.dotGeneral dot_S4x2048x4096_S8x4096_S4x2048x8_2_1_01_0_n_n none x wA) wB (ix3 b s o)
      * Ideal.ofBits .f32 0x40800000#32 = _
  rw [up_apply]
  simp only [down_apply]
  rfl

end Cert.ReferenceIdeal.RefValue

end
-- ==== Proof.LibPlainMatmul.lean ====
/-
  A plain matrix product read at an entry.  For the dimension numbers of an `M × K` by `K × N` product
  (`DotDims.plain`: the left operand contracted on its columns, the right on its rows, no batch axis), a
  `tpu.matmul` into the zero splat is, at the extended reals and at row `r`, column `c`, the sum over
  `k : Fin K` of the left operand at `(r, k)` times the right at `(k, c)`.  Nothing here names a program.
-/
import Idealize.ShloMosaic.PureOps.Ideal.Laws
import Idealize.ShloMosaic.Lib.ValueIdx

namespace Cert.PlainMatmul

open Idealize.ShloMosaic Idealize.ShloMosaic.ValueIdx

/-- The left operand's index of a plain product at output `(r, c)` and contraction coordinate `k` is `(r, k)`. -/
theorem lhsIdx_plain {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 r c) _).trans hk

/-- The right operand's index there is `(k, c)`. -/
theorem rhsIdx_plain {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 r c) _).trans hk
  | ⟨1, _⟩ => rfl

/-- A plain `tpu.matmul` into zeros, at entry `(r, c)`, is `∑ k, a (r, k) * b (k, c)` on the extended reals. -/
theorem matmul_plain_zero_apply {M K N : ℕ} {φ₁ φ₂ : FTy}
    (a : FVec Ideal ⟨2, ![M, K]⟩ φ₁) (b : FVec Ideal ⟨2, ![K, N]⟩ φ₂) (prec : Option ContractPrecision) (r : Fin M) (c : Fin N) :
    matmul (DotDims.plain M K N) prec a b (constant ⟨2, ![M, N]⟩ .f32 0x00000000#32) (ix2 r c)
      = ∑ k : Fin K, a (ix2 r k) * b (ix2 k c) := by
  show FloatOps.matmul (DotDims.plain M K N) prec a b (constant ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.PlainMatmul
-- ==== Proof.KernelPay.lean ====
/-
  One row block through the kernel's body.

  The body loads a block of 256 rows of `x` (as a 1 × 256 × 4096 array), the transposed weights `W_Aᵀ` (4096 × 8) and
  `W_Bᵀ` (8 × 4096), and stores `((rows · W_Aᵀ) · W_Bᵀ) · 4`: two plain matrix products into zero accumulators, a
  product with the splat of 4, and changes of float format, which are the identity on the extended reals.  So entry
  `(·, p, o)` of what it stores is `( ∑ r < 8, ( ∑ i < 4096, rows[p, i] · W_Aᵀ[i, r] ) · W_Bᵀ[r, o] ) · 4`.
-/
import proofs.«163478_j20564303413746_1_alg».proof.Proof.Gen.KernelIdeal.Skeleton
import proofs.«163478_j20564303413746_1_alg».proof.Proof.LibPlainMatmul
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

/-- The first product at `(p, r)`: row `p` of the block against column `r` of `W_Aᵀ`. -/
theorem down_apply (a : FVec Ideal S256x4096 .bf16) (w : FVec Ideal S4096x8 .bf16) (p : Fin 256) (r : Fin 8) :
    matmul dot_S256x4096_S4096x8_S256x8_1_0_0_1_n_n none a w (constant S256x8 .f32 0x00000000#32) (ix2 p r)
      = ∑ i : Fin 4096, a (ix2 p i) * w (ix2 i r) :=
  Cert.PlainMatmul.matmul_plain_zero_apply a w none p r

/-- The second product at `(p, o)`: the eight numbers of row `p` against column `o` of `W_Bᵀ`. -/
theorem up_apply (a : FVec Ideal S256x8 .bf16) (w : FVec Ideal S8x4096 .bf16) (p : Fin 256) (o : Fin 4096) :
    matmul dot_S256x8_S8x4096_S256x4096_1_0_0_1_n_n none a w (constant S256x4096 .f32 0x00000000#32) (ix2 p o)
      = ∑ r : Fin 8, a (ix2 p r) * w (ix2 r o) :=
  Cert.PlainMatmul.matmul_plain_zero_apply a w none p o

/-- What the body stores, at entry `(u, p, o)` of the block. -/
theorem pay_apply (v0 : FVec Ideal S1x256x4096 .f32) (v3 : FVec Ideal S4096x8 .bf16) (v5 : FVec Ideal S8x4096 .bf16)
    (u : Fin 1) (p : Fin 256) (o : Fin 4096) :
    k0_pay1 (F := Ideal) v0 v3 v5 (ix3 u p o)
      = (∑ r : Fin 8, (∑ i : Fin 4096, v0 (ix3 (0 : Fin 1) p i) * v3 (ix2 i r)) * v5 (ix2 r o))
          * Ideal.ofBits .f32 0x40800000#32 := by
  unfold k0_pay1
  refine (shapeCast_ab_1ab_apply _ _ u p o).trans ?_
  rw [shapeCast_self, shapeCast_self, mulf_apply, broadcast_apply, up_apply]
  simp only [truncf_apply, down_apply, shapeCast_1ab_ab_apply]
  rfl

end Cert.KernelIdeal.Pay

end
-- ==== Proof.KernelHost.lean ====
/-
  What the kernel's region finds in the two weight arrays it stages whole.

  Before the region, @main dequantizes the two weight matrices exactly as the reference does (a 4-bit code, moved up
  by 16 when negative, looked up in the sixteen-entry codebook; each run of 64 consecutive looked-up values, in
  row-major order, times that run's scale), then transposes each and changes its float format.  So the array the
  region stages as its second operand is `W_Aᵀ` and the third `W_Bᵀ`, each through a change of format.
-/
import proofs.«163478_j20564303413746_1_alg».proof.Proof.Gen.KernelIdeal.Frame
import Idealize.ShloMosaic.Lib.StableHlo.Run

noncomputable section

namespace Cert.KernelIdeal.HostSide

open Cert.KernelIdeal Cert.KernelIdeal.Gen Idealize.ShloMosaic Idealize.ShloMosaic.TcCoe Idealize.SL.Sem Idealize.ShloMosaic.StableHlo

variable {F : FTy → Type} [FloatOps F]

/-! ## The dequantization, as functions of the codes and the scales -/

/-- The sixteen-entry codebook. -/
abbrev codebook : FVec F S16 .f32 := fun i => FloatOps.ofBits .f32 (lit0 (S16.rowMajor i))

/-- A flat run of codes read as indices: a negative code is moved up by 16. -/
abbrev wrapIdx (q : IVec S32768 32) : IVec S32768 32 :=
  select (cmpi .slt q (broadcastInDim S32768 ![] bcast_S_S32768 (constantI S_ 32 0#32)))
    (addi q (broadcastInDim S32768 ![] bcast_S_S32768 (constantI S_ 32 16#32))) q

/-- The 32768 looked-up values in 512 runs of 64, each run times its scale. -/
abbrev dequant (q : IVec S32768 32) (absmax : FVec F S512 .f32) : FVec F S512x64 .f32 :=
  mulf
    (shapeCast S512x64
      (Host.gather gather_S16_S32768x1_S32768_n_0_n_n_0_1_1 (codebook (F := F))
        (broadcastInDim S32768x1 ![0] bcast_S32768_S32768x1_0 (wrapIdx q)))
      shapeCasts_S32768_S512x64)
    (broadcastInDim S512x64 ![0, 1] bcast_S512x1_S512x64_0_1 (broadcastInDim S512x1 ![0] bcast_S512_S512x1_0 absmax))

/-- `W_A`, 8 × 4096. -/
abbrev weightA (qA : IVec S8x4096 32) (sA : FVec F S512 .f32) : FVec F S8x4096 .f32 :=
  shapeCast S8x4096 (dequant (shapeCast S32768 qA shapeCasts_S8x4096_S32768) sA) shapeCasts_S512x64_S8x4096

/-- `W_B`, 4096 × 8. -/
abbrev weightB (qB : IVec S4096x8 32) (sB : FVec F S512 .f32) : FVec F S4096x8 .f32 :=
  shapeCast S4096x8 (dequant (shapeCast S32768 qB shapeCasts_S4096x8_S32768) sB) shapeCasts_S512x64_S4096x8

/-! ## The two staged arrays at region entry -/

variable (m : (ℓ : Loc nD τ sig) → Buf (Elt F) ℓ)

set_option maxRecDepth 8192 in
set_option maxHeartbeats 4000000 in
/-- The second operand's array at region entry is `W_Aᵀ`, through the change of format. -/
theorem entry_wAT (c : Dev nD) :
    V m c main_v27
      = truncf .bf16 (transpose S4096x8 [1, 0]
          (weightA (m ((c : Thread nD τ).loc main_arg1)) (m ((c : Thread nD τ).loc main_arg2)))
          transposes_S8x4096_S4096x8_1_0) bitsLt_bf16_f32 := by
  dsimp only [V, hostOps0]
  after_results_simp <;> rfl

set_option maxRecDepth 8192 in
set_option maxHeartbeats 4000000 in
/-- The third operand's array at region entry is `W_Bᵀ`, through the change of format. -/
theorem entry_wBT (c : Dev nD) :
    V m c main_v29
      = truncf .bf16 (transpose S8x4096 [1, 0]
          (weightB (m ((c : Thread nD τ).loc main_arg3)) (m ((c : Thread nD τ).loc main_arg4)))
          transposes_S4096x8_S8x4096_1_0) bitsLt_bf16_f32 := by
  dsimp only [V, hostOps0]
  after_results_simp <;> rfl

end Cert.KernelIdeal.HostSide

end
-- ==== Proof.KernelValue.lean ====
/-
  The kernel's result array, from blocks to one function of the arguments.

  The grid has 4 × 8 points: point `(b, sb)` loads rows `256·sb … 256·sb + 255` of batch `b` of `x` and the two
  transposed weight arrays whole, and writes back the same rows of batch `b` of the result.  What it writes is the
  update's entries for those rows (the body's two products read as sums), so the 32 write-backs, which tile the result,
  leave the result array at the update of `x` and the weights the region found, and these are `W_Aᵀ`, `W_Bᵀ` of the
  dequantized arguments.
-/
import proofs.«163478_j20564303413746_1_alg».proof.Proof.Gen.KernelIdeal.Value
import proofs.«163478_j20564303413746_1_alg».proof.Proof.KernelPay
import proofs.«163478_j20564303413746_1_alg».proof.Proof.KernelHost
import proofs.«163478_j20564303413746_1_alg».proof.Proof.Spec
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Value

variable (m : (ℓ : Loc nD τ sig) → Buf (Elt Ideal) ℓ) (ρ : Dev nD → PrngReg)

/-! ## The result from the arrays the region stages -/

/-- The update written over the TRANSPOSED weights, as the region finds them: entry `(b, s, o)` is
    `( ∑ r, ( ∑ i, x[b, s, i] · W_Aᵀ[i, r] ) · W_Bᵀ[r, o] ) · 4`. -/
def fromT (x : FVec Ideal S4x2048x4096 .f32) (waT : FVec Ideal S4096x8 .bf16) (wbT : FVec Ideal S8x4096 .bf16) :
    FVec Ideal S4x2048x4096 .f32 :=
  fun j => (∑ r : Fin 8, (∑ i : Fin 4096, x (ix3 (j 0) (j 1) i) * waT (ix2 i r)) * wbT (ix2 r (j 2)))
    * Ideal.ofBits .f32 0x40800000#32

theorem zero3 : (![0, 0, 0] : Fin 3 → Nat) = fun _ => 0 := funext fun a => by fin_cases a <;> rfl
theorem zero2 : (![0, 0] : Fin 2 → Nat) = fun _ => 0 := funext fun a => by fin_cases a <;> rfl

/-! ## Where each window's block lies -/

/-- Decided over the 32 grid points: the block of `x` and the block of the result have the same batch and row-block
    index and span all 4096 columns; each weight array is one block; the batch index is below 4 and the row-block
    index below 8. -/
theorem index_facts : ∀ t : Fin cfg0.N,
    win0_0.index t (0 : Fin 3) = win0_3.index t (0 : Fin 3) ∧ win0_0.index t (1 : Fin 3) = win0_3.index t (1 : Fin 3)
    ∧ win0_0.index t (2 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) < 4 ∧ win0_3.index t (1 : Fin 3) < 8 :=
  (by decide +kernel : ∀ t : Fin grid0.N, _)

/-- Every (batch, row block) pair is some grid point's. -/
theorem index_onto : ∀ (q0 : Fin 4) (q1 : Fin 8), ∃ t : Fin cfg0.N, win0_3.index t = ![q0.val, q1.val, 0] :=
  (by decide +kernel : ∀ (q0 : Fin 4) (q1 : Fin 8), ∃ t : Fin grid0.N, win0_3.index t = ![q0.val, q1.val, 0])

/-! ## What one grid point writes back -/

/-- Point `t` writes back block `t` of `fromT` of the arrays as the region finds them: the 256 rows it loaded are rows
    `256·sb … 256·sb + 255` of batch `b` of `x`, the two weight blocks are the whole weight arrays, and the block it stores
    goes to the same rows of the result. -/
theorem flushed_eq (c : Dev nD) (t : Fin cfg0.N) :
    (dats m 0 c).flushed 3 t
      = ((cfg0.win 3).blk t).view.read (Elt Ideal) (fromT (V m c main_arg0) (V m c main_v27) (V m c main_v29)) := by
  rw [Value.flushed3]
  unfold out0_3
  rw [View.canon_unit_zero zero3]
  simp only [View.ld_unit_zero (S := S1x256x4096) zero3, View.ld_unit_zero (S := S4096x8) zero2, View.ld_unit_zero (S := S8x4096) zero2]
  funext j
  obtain ⟨u, p, o, rfl⟩ : ∃ (u : Fin 1) (p : Fin 256) (o : Fin 4096), j = ix3 u p o := ⟨j 0, j 1, j 2, eq_ix3 j⟩
  show k0_pay1 (F := Ideal) (iblk m c 0 t) (iblk m c 1 t) (iblk m c 2 t) (ix3 u p o)
      = fromT (V m c main_arg0) (V m c main_v27) (V m c main_v29) (((cfg0.win 3).blk t).view.emb (ix3 u p o))
  refine (Pay.pay_apply (iblk m c 0 t) (iblk m c 1 t) (iblk m c 2 t) u p o).trans ?_
  obtain ⟨f0, f1, f2, f3, f4, f5, f6, f7, f8, f9⟩ := index_facts t
  have hu : u.val = 0 := by have := u.isLt; omega
  -- the three blocks read where the result's block says
  have hx : ∀ i : Fin 4096, ((cfg0.win 0).blk t).view.emb (ix3 (0 : Fin 1) p i)
      = (ix3 (((cfg0.win 3).blk t).view.emb (ix3 u p o) 0) (((cfg0.win 3).blk t).view.emb (ix3 u p o) 1) i : S4x2048x4096.Idx) := fun i => by
    funext a; apply Fin.ext
    match a with
    | ⟨0, _⟩ => show win0_0.index t (0 : Fin 3) * 1 + 1 * (0 : Fin 1).val = win0_3.index t (0 : Fin 3) * 1 + 1 * u.val; rw [hu, f0]; rfl
    | ⟨1, _⟩ => show win0_0.index t (1 : Fin 3) * 256 + 1 * p.val = win0_3.index t (1 : Fin 3) * 256 + 1 * p.val; rw [f1]
    | ⟨2, _⟩ => show win0_0.index t (2 : Fin 3) * 4096 + 1 * i.val = i.val; rw [f2]; omega
  have ha : ∀ (i : Fin 4096) (r : Fin 8), ((cfg0.win 1).blk t).view.emb (ix2 i r) = (ix2 i r : S4096x8.Idx) := fun i r => by
    funext a; apply Fin.ext
    match a with
    | ⟨0, _⟩ => show win0_1.index t (0 : Fin 2) * 4096 + 1 * i.val = i.val; rw [f4]; omega
    | ⟨1, _⟩ => show win0_1.index t (1 : Fin 2) * 8 + 1 * r.val = r.val; rw [f5]; omega
  have hb : ∀ r : Fin 8, ((cfg0.win 2).blk t).view.emb (ix2 r o)
      = (ix2 r (((cfg0.win 3).blk t).view.emb (ix3 u p o) 2) : S8x4096.Idx) := fun r => by
    funext a; apply Fin.ext
    match a with
    | ⟨0, _⟩ => show win0_2.index t (0 : Fin 2) * 8 + 1 * r.val = r.val; rw [f6]; omega
    | ⟨1, _⟩ => show win0_2.index t (1 : Fin 2) * 4096 + 1 * o.val = win0_3.index t (2 : Fin 3) * 4096 + 1 * o.val; rw [f7, f3]
  -- each loaded entry is the entry of its array that the result's block names
  have e0 : ∀ i : Fin 4096, iblk m c 0 t (ix3 (0 : Fin 1) p i)
      = V m c main_arg0 (ix3 (((cfg0.win 3).blk t).view.emb (ix3 u p o) 0) (((cfg0.win 3).blk t).view.emb (ix3 u p o) 1) i) := fun i => by
    show V m c main_arg0 (((cfg0.win 0).blk t).view.emb (ix3 (0 : Fin 1) p i)) = _
    rw [hx i]
  have e1 : ∀ (i : Fin 4096) (r : Fin 8), iblk m c 1 t (ix2 i r) = V m c main_v27 (ix2 i r) := fun i r => by
    show V m c main_v27 (((cfg0.win 1).blk t).view.emb (ix2 i r)) = _
    rw [ha i r]
  have e2 : ∀ r : Fin 8, iblk m c 2 t (ix2 r o) = V m c main_v29 (ix2 r (((cfg0.win 3).blk t).view.emb (ix3 u p o) 2)) := fun r => by
    show V m c main_v29 (((cfg0.win 2).blk t).view.emb (ix2 r o)) = _
    rw [hb r]
  unfold fromT
  refine congrArg (· * Ideal.ofBits .f32 0x40800000#32) (Finset.sum_congr rfl fun r _ => ?_)
  rw [e2 r]
  refine congrArg (· * _) (Finset.sum_congr rfl fun i _ => ?_)
  rw [e0 i, e1 i r]

/-! ## The blocks cover the result -/

/-- An index of the result is in point `t`'s block iff each coordinate is in the block's range on its axis. -/
theorem mem_block (t : Fin cfg0.N) (i : S4x2048x4096.Idx) :
    i ∈ ((cfg0.win 3).blk t).view.set ↔ ∀ a : Fin 3, win0_3.index t a * S1x256x4096.size a ≤ (i a).val
      ∧ (i a).val < win0_3.index t a * S1x256x4096.size a + S1x256x4096.size a := by
  show i ∈ ((View.whole main_v30).slice (win0_3.rect t)).set ↔ _
  rw [View.set_slice_whole, Rect.mem_set_unit]
  exact Iff.rfl

/-- Entry `(b, s, o)` lies in the block of the grid point with batch `b` and row block `s / 256`. -/
theorem covered (i : S4x2048x4096.Idx) :
    ∃ t : Fin cfg0.N, (cfg0.win 3).flush t = true ∧ i ∈ ((cfg0.win 3).blk t).view.set := by
  have h0 : (i 0).val < 4 := (i 0).isLt
  have h1 : (i 1).val < 2048 := (i 1).isLt
  have h2 : (i 2).val < 4096 := (i 2).isLt
  obtain ⟨t, ht⟩ := index_onto ⟨(i 0).val, h0⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 4096 ≤ (i 2).val ∧ (i 2).val < win0_3.index t (2 : Fin 3) * 4096 + 4096; omega

/-- So after the run the result array is `fromT` of the arrays as the region finds them. -/
theorem final (c : Dev nD) :
    (dats m 0 c).arrAt 3 cfg0.N = fromT (V m c main_arg0) (V m c main_v27) (V m c main_v29) :=
  (dats m 0 c).arrAt_eq_of_cover 3 _ (fun t _ => flushed_eq m c t) covered

/-! ## From the staged arrays back to the arguments -/

/-- Over `W_Aᵀ` and `W_Bᵀ` (each through a change of float format, the identity on the extended reals) `fromT` is the
    update over `W_A` and `W_B`: entry `(i, r)` of a transpose is entry `(r, i)` of the matrix. -/
theorem fromT_transposed (x : FVec Ideal S4x2048x4096 .f32) (wA : FVec Ideal S8x4096 .f32) (wB : FVec Ideal S4096x8 .f32) :
    fromT x (truncf .bf16 (transpose S4096x8 [1, 0] wA transposes_S8x4096_S4096x8_1_0) bitsLt_bf16_f32)
        (truncf .bf16 (transpose S8x4096 [1, 0] wB transposes_S4096x8_S8x4096_1_0) bitsLt_bf16_f32)
      = Cert.Lora.update x wA wB := by
  funext j
  obtain ⟨b, s, o, rfl⟩ : ∃ (b : Fin 4) (s : Fin 2048) (o : Fin 4096), j = ix3 b s o := ⟨j 0, j 1, j 2, eq_ix3 j⟩
  rw [Cert.Lora.update_apply]
  show (∑ r : Fin 8, (∑ i : Fin 4096, x (ix3 b s i)
          * (truncf .bf16 (transpose S4096x8 [1, 0] wA transposes_S8x4096_S4096x8_1_0) bitsLt_bf16_f32 : FVec Ideal S4096x8 .bf16) (ix2 i r))
        * (truncf .bf16 (transpose S8x4096 [1, 0] wB transposes_S4096x8_S8x4096_1_0) bitsLt_bf16_f32 : FVec Ideal S8x4096 .bf16) (ix2 r o))
      * Ideal.ofBits .f32 0x40800000#32
    = (∑ r : Fin 8, (∑ i : Fin 4096, x (ix3 b s i) * wA (ix2 r i)) * wB (ix2 o r)) * Ideal.ofBits .f32 0x40800000#32
  simp only [truncf_apply]
  refine congrArg (· * Ideal.ofBits .f32 0x40800000#32) (Finset.sum_congr rfl fun r _ => ?_)
  refine congrArg₂ (· * ·) (Finset.sum_congr rfl fun i _ => ?_) (transpose_ix2_apply wB transposes_S4096x8_S8x4096_1_0 r o)
  exact congrArg (x (ix3 b s i) * ·) (transpose_ix2_apply wA transposes_S8x4096_S4096x8_1_0 i r)

/-- After the run the result array is the update of the arguments as launched. -/
theorem result_eq (c : Dev nD) :
    (dats m 0 c).arrAt 3 cfg0.N
      = Cert.Lora.update (m ((c : Thread nD τ).loc main_arg0))
          (HostSide.weightA (m ((c : Thread nD τ).loc main_arg1)) (m ((c : Thread nD τ).loc main_arg2)))
          (HostSide.weightB (m ((c : Thread nD τ).loc main_arg3)) (m ((c : Thread nD τ).loc main_arg4))) := by
  rw [final, V_main_arg0, HostSide.entry_wAT, HostSide.entry_wBT, fromT_transposed]

/-- The kernel's run, read: every weakly fair execution terminates with the result array at the update of the arguments,
    and the arguments unchanged. -/
theorem run : θ_run defs (onTc (τ := τ) (main (F := Ideal))) ⟨m, fun _ => 0, ρ⟩ fun r => ∀ c : Dev nD,
      r.2.mem ((c : Thread nD τ).loc main_v30)
          = Cert.Lora.update (m ((c : Thread nD τ).loc main_arg0))
              (HostSide.weightA (m ((c : Thread nD τ).loc main_arg1)) (m ((c : Thread nD τ).loc main_arg2)))
              (HostSide.weightB (m ((c : Thread nD τ).loc main_arg3)) (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (result_eq m c), (h c).2⟩) (Value.run_blocks m ρ)

end Cert.KernelIdeal.Blocks

end
-- ==== Proof.SameWeights.lean ====
/-
  The two programs dequantize the same weights.

  The reference and the kernel's host prefix dequantize with the same operations over the same codebook words, each
  program naming its own copy of the shapes, of the gather's dimension numbers and of the codebook's table.  Entry by
  entry the two codebooks hold the same sixteen words, and the two gathers have the same dimension numbers, so the two
  `W_A` (and the two `W_B`) are one function of the codes and the scales.
-/
import proofs.«163478_j20564303413746_1_alg».proof.Proof.RefRun
import proofs.«163478_j20564303413746_1_alg».proof.Proof.KernelHost

noncomputable section

namespace Cert.SameWeights

open Idealize.ShloMosaic

variable {F : FTy → Type} [FloatOps F]

/-- The two codebook tables hold the same sixteen words. -/
theorem lit_same : ∀ k : Fin 16, Cert.ReferenceIdeal.lit0 k = Cert.KernelIdeal.lit0 k := by decide

/-- So the two codebooks are one vector. -/
theorem codebook_same :
    (Cert.ReferenceIdeal.RefRun.codebook (F := F)) = Cert.KernelIdeal.HostSide.codebook (F := F) :=
  funext fun i => congrArg (FloatOps.ofBits .f32) (lit_same _)

/-- The same runs of 64 times the same scales. -/
theorem dequant_same (q : IVec ⟨1, ![32768]⟩ 32) (s : FVec F ⟨1, ![512]⟩ .f32) :
    Cert.ReferenceIdeal.RefRun.dequant (F := F) q s = Cert.KernelIdeal.HostSide.dequant (F := F) q s := by
  unfold Cert.ReferenceIdeal.RefRun.dequant Cert.KernelIdeal.HostSide.dequant
  rw [codebook_same]
  rfl

/-- `W_A` is the same function of its codes and scales in both programs. -/
theorem weightA_same (q : IVec ⟨2, ![8, 4096]⟩ 32) (s : FVec F ⟨1, ![512]⟩ .f32) :
    Cert.ReferenceIdeal.RefRun.weightA (F := F) q s = Cert.KernelIdeal.HostSide.weightA (F := F) q s := by
  unfold Cert.ReferenceIdeal.RefRun.weightA Cert.KernelIdeal.HostSide.weightA
  rw [dequant_same]

/-- `W_B` likewise. -/
theorem weightB_same (q : IVec ⟨2, ![4096, 8]⟩ 32) (s : FVec F ⟨1, ![512]⟩ .f32) :
    Cert.ReferenceIdeal.RefRun.weightB (F := F) q s = Cert.KernelIdeal.HostSide.weightB (F := F) q s := by
  unfold Cert.ReferenceIdeal.RefRun.weightB Cert.KernelIdeal.HostSide.weightB
  rw [dequant_same]

end Cert.SameWeights

end
-- ==== Proof.lean ====
/-
  A 4-bit-quantized low-rank update, kernel against reference, over the extended reals.

  Both programs take `x` (4 × 2048 × 4096), two arrays of 4-bit codes and two arrays of per-64-entry scales.  Both first
  dequantize the codes into `W_A` (8 × 4096) and `W_B` (4096 × 8) with the same host operations: a code, moved up by
  16 when negative, indexes a sixteen-entry codebook, and each run of 64 consecutive looked-up values is multiplied by its
  scale.  Both then compute, at entry `(b, s, o)`,

      ( ∑ r < 8, ( ∑ i < 4096, x[b, s, i] · W_A[r, i] ) · W_B[o, r] ) · 4.

  The reference does it with two contractions over whole arrays.  The kernel transposes both weight matrices on the host,
  and on a 4 × 8 grid takes 256 rows of one batch at a time through two plain matrix products with zero accumulators;
  its changes of float format are the identity on the extended reals.  Read entry by entry the two are the same sums of
  the same products in the same order, so no law of arithmetic joins them and the finiteness of the inputs is never
  used; the integer codes may be anything, the gather being total.

  The three frames: the kernel's two by its generated frame certificate; the reference's by its run
  (a straight line of host operations) with the result dropped.  The idealization rewrote nothing, so what it preserves
  is trivially true.
-/
import proofs.«163478_j20564303413746_1_alg».proof.Defs
import proofs.«163478_j20564303413746_1_alg».proof.Proof.Gen.Kernel
import proofs.«163478_j20564303413746_1_alg».proof.Proof.Gen.Kernel.Skeleton
import proofs.«163478_j20564303413746_1_alg».proof.Proof.Gen.Kernel.Launch
import proofs.«163478_j20564303413746_1_alg».proof.Proof.Gen.Kernel.Points
import proofs.«163478_j20564303413746_1_alg».proof.Proof.Gen.Kernel.Frame
import proofs.«163478_j20564303413746_1_alg».proof.Proof.Gen.KernelIdeal
import proofs.«163478_j20564303413746_1_alg».proof.Proof.Gen.KernelIdeal.Skeleton
import proofs.«163478_j20564303413746_1_alg».proof.Proof.Gen.KernelIdeal.Launch
import proofs.«163478_j20564303413746_1_alg».proof.Proof.Gen.KernelIdeal.Points
import proofs.«163478_j20564303413746_1_alg».proof.Proof.Gen.KernelIdeal.Frame
import proofs.«163478_j20564303413746_1_alg».proof.Proof.Gen.KernelIdeal.Value
import proofs.«163478_j20564303413746_1_alg».proof.Proof.Gen.ReferenceIdeal
import proofs.«163478_j20564303413746_1_alg».proof.Proof.Gen.Pre_finite_inputs
import proofs.«163478_j20564303413746_1_alg».proof.Proof.RefRun
import proofs.«163478_j20564303413746_1_alg».proof.Proof.RefValue
import proofs.«163478_j20564303413746_1_alg».proof.Proof.KernelValue
import proofs.«163478_j20564303413746_1_alg».proof.Proof.SameWeights
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- From memories that agree on the five arguments, the kernel's result array and the reference's both end at the
    update of `x` and the dequantized `W_A`, `W_B`: the kernel's by its 32 write-backs, the reference's by its two
    contractions, and the two programs' dequantizations are one function of the codes and the scales. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.RefRun.run (F := Ideal) m' ρ')
  obtain ⟨a0, a1, a2, a3, a4⟩ := hagree c
  rw [a0, a1, a2, a3, a4, Cert.ReferenceIdeal.RefValue.refOf_eq_update, Cert.SameWeights.weightA_same,
    Cert.SameWeights.weightB_same]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
